-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S16x1024 : Shape := ⟨2, ![16, 1024]⟩
abbrev S8x512x1024 : Shape := ⟨3, ![8, 512, 1024]⟩
abbrev S8x1024 : Shape := ⟨2, ![8, 1024]⟩

abbrev nBuf : Space → Nat
  | .hbm => 2
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .local _ .vmem, ⟨0, _⟩ => ⟨S8x512x1024, .f32⟩
  | .local _ .vmem, ⟨1, _⟩ => ⟨S8x512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x512x1024_S8x512x1024_0_0_0 : ∀ a, (![0, 0, 0] : Fin 3 → Nat) a + S8x512x1024.size a ≤ S8x512x1024.size a
  h_S8x512x1024 : 0 < S8x512x1024.numel
  reduces_S8x512x1024_S8x1024 : S8x512x1024.Reduces [1] S8x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S16x4096x1024.size a
  hwx0_0 : ∀ i : grid0.Coords, EltTy.bits .f32 = 32 ∨ (Rect.block (s := S16x4096x1024) S8x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S16x1024.size a
  hwx0_1 : ∀ i : grid0.Coords, EltTy.bits .f32 = 32 ∨ (Rect.block (s := S16x1024) S8x1024.size (cc0_transform_1 i) (hinb0_1 i)).WholeWords (EltTy.packing .f32)

variable [Facts₀]

abbrev win0_0 : Pipeline.Window sig grid0 :=
  Pipeline.Window.ofSpec (Memref.whole main_arg0) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S_ : Shape := ⟨0, ![]⟩
abbrev S16x1024 : Shape := ⟨2, ![16, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S16x4096x1024_S16x1024_d1 : S16x4096x1024.ReducesTo [1] S16x1024
  h_S_ : 0 < S_.numel
  bcast_S_S16x1024 : S_.BroadcastsInDim S16x1024 (![] : Fin 0 → Fin S16x1024.rank)

variable [Facts₀]

class Facts : Prop extends Facts₀ where

variable [Facts]
-- ==== Proof.TilePieces.lean ====
/-
  What one grid point leaves behind, as values.

  The kernel keeps a running sum in a scratch block of shape 8 × 1024. At a point it loads the scratch and the
  current 8 × 512 × 1024 tile of the input and stores back "scratch + the tile's sums over its 512 times"
  (the body's second payload). At the first point of a run of eight it first stores zeros (the first payload), so
  there the update is taken over the zero block; at the last point of a run it also copies the updated scratch to
  the output block. So, whatever memory the blocks live in:

    first point of a run   scratch := step zeros tile
    middle point           scratch := step previous tile
    last point             scratch := step previous tile,  output := step previous tile

  Each statement below says that the pieces a point's stores leave in a buffer, read back, are that value:
  the last store covers the whole block, so its payload is what remains, and a load of the scratch after a store of
  the whole block reads that store's payload.
-/
import proofs.«179624_j45810121179453_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 and of a rank-3 whole-block access. -/
theorem zero2 : (![0, 0] : Fin 2 → Nat) = fun _ => 0 := by
  funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- First point of a run: the scratch ends at the update of the zero block by the tile. -/
theorem scratch_first (c : Dev nD) (i : grid0.Coords) (arg2 : Memref sig .tc .vmem S8x512x1024 .f32) (harg2 : arg2.IsWhole) (arg3 : Memref sig .tc .vmem S8x1024 .f32) (harg3 : arg3.IsWhole) (arg4 : Memref sig .tc .vmem S8x1024 .f32) (harg4 : arg4.IsWhole) (hc0 : cond0_0 i) (hc1 : ¬cond0_1 i)
    (x0 : Vec F S8x512x1024 .f32) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S8x1024) zero2, View.readCov_unit_zero (S := S8x1024) _ zero2]
  simp only [View.readAt_eq_ld, harg2.read_unread, View.ld_unit_zero (S := S8x512x1024) zero3]

/-- Middle point: the scratch ends at the update of what the point before left by the tile. -/
theorem scratch_middle (c : Dev nD) (i : grid0.Coords) (arg2 : Memref sig .tc .vmem S8x512x1024 .f32) (harg2 : arg2.IsWhole) (arg3 : Memref sig .tc .vmem S8x1024 .f32) (harg3 : arg3.IsWhole) (arg4 : Memref sig .tc .vmem S8x1024 .f32) (harg4 : arg4.IsWhole) (hc0 : ¬cond0_0 i) (hc1 : ¬cond0_1 i)
    (x0 : Vec F S8x512x1024 .f32) (xs0 : Vec F S8x1024 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (S := S8x1024) zero2]
  simp only [View.readAt_eq_ld, harg2.read_unread, harg4.read_unread, View.ld_unit_zero (S := S8x512x1024) zero3,
    View.ld_unit_zero (S := S8x1024) zero2]

/-- Last point: the scratch ends at the same update … -/
theorem scratch_last (c : Dev nD) (i : grid0.Coords) (arg2 : Memref sig .tc .vmem S8x512x1024 .f32) (harg2 : arg2.IsWhole) (arg3 : Memref sig .tc .vmem S8x1024 .f32) (harg3 : arg3.IsWhole) (arg4 : Memref sig .tc .vmem S8x1024 .f32) (harg4 : arg4.IsWhole) (hc0 : ¬cond0_0 i) (hc1 : cond0_1 i)
    (x0 : Vec F S8x512x1024 .f32) (xs0 : Vec F S8x1024 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (S := S8x1024) zero2]
  simp only [View.readAt_eq_ld, harg2.read_unread, harg4.read_unread, View.ld_unit_zero (S := S8x512x1024) zero3,
    View.ld_unit_zero (S := S8x1024) zero2]

/-- … and the output block holds a copy of it. -/
theorem output_last (c : Dev nD) (i : grid0.Coords) (arg2 : Memref sig .tc .vmem S8x512x1024 .f32) (harg2 : arg2.IsWhole) (arg3 : Memref sig .tc .vmem S8x1024 .f32) (harg3 : arg3.IsWhole) (arg4 : Memref sig .tc .vmem S8x1024 .f32) (harg4 : arg4.IsWhole) (hc0 : ¬cond0_0 i) (hc1 : cond0_1 i)
    (x0 : Vec F S8x512x1024 .f32) (xs0 : Vec F S8x1024 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S8x1024) zero2, View.readCov_unit_zero (S := S8x1024) _ zero2]
  simp only [View.readAt_eq_ld, harg2.read_unread, harg4.read_unread, View.ld_unit_zero (S := S8x512x1024) zero3,
    View.ld_unit_zero (S := S8x1024) zero2]

end Cert.KernelIdeal.Pieces

end
-- ==== Proof.TileStep.lean ====
/-
  One update of the running sum, read at an index of the 8 × 1024 block, on the extended reals.

  The block of zeros the kernel stores at the start of a run is 0 at every index. The update
  "previous + sums of the tile over its 512 times" is, at row `p` and feature `d`,
  `previous p d + ∑ₖ tile p k d` with `k` running over the tile's 512 times: the lane reduction over the middle
  axis is the plain finite sum there, and the same-shape casts around it change nothing.
-/
import proofs.«179624_j45810121179453_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Step

open Cert.KernelIdeal Cert.KernelIdeal.Gen Idealize.ShloMosaic Idealize.ShloMosaic.ValueIdx

/-- Index (p, d) of the block with time `k` put on the reduced axis is index (p, k, d) of the tile. -/
theorem lift_time (p : Fin 8) (d : Fin 1024) (k : Fin 512) :
    Facts₀.reduces_S8x512x1024_S8x1024.lift (ix2 p d) k = ix3 p k d := by
  funext a; match a with | ⟨0, _⟩ => rfl | ⟨1, _⟩ => rfl | ⟨2, _⟩ => rfl

/-- The lane reduction of a tile over its time axis, at (p, d): the sum over the 512 times. -/
theorem lane_sum (x : FVec Ideal S8x512x1024 .f32) (hφ : FKind.Formats .f32)
    (hacc : (0x00000000#32 : BitVec 32) = FKind.add.neutral .f32 hφ) (p : Fin 8) (d : Fin 1024) :
    multiReduction .add [1] S8x1024 x 0x00000000#32 Facts₀.reduces_S8x512x1024_S8x1024 hφ hacc (ix2 p d)
      = ∑ k : Fin 512, x (ix3 p k d) := by
  refine (Ideal.multiReduction_add_single x 0x00000000#32 Facts₀.reduces_S8x512x1024_S8x1024 hφ hacc (ix2 p d)).trans ?_
  exact Finset.sum_congr rfl fun k _ => congrArg x (lift_time p d k)

/-- The block stored at the start of a run is zero everywhere. -/
theorem reset_apply (i : S8x1024.Idx) : (k0_pay1 (F := Ideal)) i = 0 := by
  unfold k0_pay1
  rw [shapeCast_self]
  exact Ideal.ofBits_zero_f32

/-- One update at (p, d): what was there plus the tile's sum over its times. -/
theorem step_apply (acc : FVec Ideal S8x1024 .f32) (x : FVec Ideal S8x512x1024 .f32) (p : Fin 8) (d : Fin 1024) :
    k0_pay2 (F := Ideal) acc x (ix2 p d) = acc (ix2 p d) + ∑ k : Fin 512, x (ix3 p k d) := by
  unfold k0_pay2
  rw [shapeCast_self]
  exact congrArg (acc (ix2 p d) + ·) (lane_sum x _ _ p d)

end Cert.KernelIdeal.Step

end
-- ==== Proof.TimeSum.lean ====
/-
  The mathematics of pooling by summation over the time axis, with no program in sight.

  For an array `x` of extents 16 × 4096 × 1024 (batch, time, feature) the pooled array holds, at
  (b, d), the sum of `x b k d` over all 4096 times `k`. Two facts about that sum are stated here, both on the
  extended reals and neither needing the entries to be finite:

  * cutting the time axis into 8 consecutive tiles of 512 and adding the tiles' sums gives the same sum
    (addition on the extended reals is commutative and associative, so a finite sum may be regrouped);
  * multiplying by 4096 after dividing by 4096 gives the sum back: division by a nonzero real is the
    product with its reciprocal at the infinities too, and the two real factors multiply to one.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.TimeSum

open Idealize.ShloMosaic Idealize.ShloMosaic.ValueIdx

/-- The input's shape (batch, time, feature) and the pooled shape (batch, feature). -/
abbrev SIn : Shape := ⟨3, ![16, 4096, 1024]⟩
abbrev SOut : Shape := ⟨2, ![16, 1024]⟩

/-- The pooled array: at (b, d) the sum over every time `k` of `x b k d`. -/
def total (x : SIn.Idx → EReal) : SOut.Idx → EReal :=
  fun i => ∑ k : Fin 4096, x (ix3 (i 0) k (i 1))

/-- The batch row `8 · q + p` of the `p`-th row inside the `q`-th block of eight rows. -/
abbrev rowOf (q : Fin 2) (p : Fin 8) : Fin 16 := ⟨8 * q.val + p.val, by omega⟩

/-- The time `512 · j + k` of the `k`-th step inside the `j`-th tile. -/
abbrev timeOf (j : Fin 8) (k : Fin 512) : Fin 4096 := ⟨512 * j.val + k.val, by omega⟩

/-- A sum over the 4096 times is the sum over the 8 tiles of each tile's sum over its 512 times. -/
theorem sum_tiles {β : Type*} [AddCommMonoid β] (f : Fin 4096 → β) :
    ∑ j : Fin 8, ∑ k : Fin 512, f (timeOf j k) = ∑ k : Fin 4096, f k := by
  rw [← Fintype.sum_prod_type']
  refine Fintype.sum_equiv (finProdFinEquiv (m := 8) (n := 512)) _ _ fun p => ?_
  refine congrArg f (Fin.ext ?_)
  show 512 * p.1.val + p.2.val = p.2.val + 512 * p.1.val
  omega

/-- The pattern of `4096.0` denotes the real 4096. -/
theorem ofBits_4096 : Ideal.ofBits .f32 0x45800000#32 = ((4096 : ℝ) : EReal) := by
  simp [Ideal.ofBits, Ideal.ieee, -EReal.coe_mul]; norm_num

/-- Scaling by 4096 undoes division by 4096, at every extended real. -/
theorem scale_cancel (s : EReal) : ((4096 : ℝ) : EReal) * Ideal.div s ((4096 : ℝ) : EReal) = s := by
  rw [Ideal.div_coe (by norm_num : (4096 : ℝ) ≠ 0), mul_comm s, ← mul_assoc, ← EReal.coe_mul]
  norm_num

end Cert.TimeSum

end
-- ==== Proof.TileOfInput.lean ====
/-
  Which part of the input a grid point sees, and which part of the output it owns.

  The grid has 16 points, point `t = 8·q + s` working on the `q`-th block of eight batch rows and the `s`-th tile of
  512 times. The tile staged for it is the input restricted to those rows and times: at (p, k, d) it holds the
  input at (8·q + p, 512·s + k, d). The output block of the point is rows 8·q … 8·q + 7, all 1024 features.
-/
import proofs.«179624_j45810121179453_1_alg».proof.Proof.Gen.KernelIdeal.Frame
import proofs.«179624_j45810121179453_1_alg».proof.Proof.TimeSum
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx Cert.TimeSum

variable {F : FTy → Type} [FloatOps F]
variable (m : (ℓ : Loc nD τ sig) → Buf (Elt F) ℓ)

/-- The input array as the kernel region finds it, and the tile staged at point `t`, at their literal shapes. -/
abbrev input (c : Dev nD) : Vec F S16x4096x1024 .f32 := V m c main_arg0
abbrev tile (c : Dev nD) (t : Fin cfg0.N) : Vec F S8x512x1024 .f32 := iblk m c 0 t

/-- There are sixteen points. -/
theorem point_lt (t : Fin cfg0.N) : t.val < 16 := lt_of_lt_of_eq t.isLt (show cfg0.N = 16 from N_0)

/-- The input window's block index at point `t` is (t / 8, t mod 8, 0), and the output window's (t / 8, 0): decided
    over the sixteen points. -/
theorem block_index : ∀ t : Fin cfg0.N, win0_0.index t (0 : Fin 3) = t.val / 8 ∧ win0_0.index t (1 : Fin 3) = t.val % 8
    ∧ win0_0.index t (2 : Fin 3) = 0 ∧ win0_1.index t (0 : Fin 2) = t.val / 8 ∧ win0_1.index t (1 : Fin 2) = 0 :=
  (by decide +kernel : ∀ t : Fin grid0.N, _)

/-- The tile at point `8·q + s`, at (p, k, d), is the input at row `8·q + p`, time `512·s + k`, feature `d`. -/
theorem tile_apply (c : Dev nD) (t : Fin cfg0.N) (q : Fin 2) (s : Fin 8) (hq : t.val = 8 * q.val + s.val)
    (p : Fin 8) (k : Fin 512) (d : Fin 1024) :
    tile m c t (ix3 p k d) = input m c (ix3 (rowOf q p) (timeOf s k) d) := by
  obtain ⟨e0, e1, e2, -, -⟩ := block_index t
  show V m c main_arg0 (((cfg0.win 0).blk t).view.emb (ix3 p k d)) = V m c main_arg0 (ix3 (rowOf q p) (timeOf s k) d)
  refine congrArg (V m c main_arg0) (funext fun a => Fin.ext ?_)
  match a with
  | ⟨0, _⟩ => show win0_0.index t (0 : Fin 3) * 8 + 1 * p.val = 8 * q.val + p.val; omega
  | ⟨1, _⟩ => show win0_0.index t (1 : Fin 3) * 512 + 1 * k.val = 512 * s.val + k.val; omega
  | ⟨2, _⟩ => show win0_0.index t (2 : Fin 3) * 1024 + 1 * d.val = d.val; omega

end Cert.KernelIdeal.Tiles

end
-- ==== Proof.RunFold.lean ====
/-
  The running sum over one run of eight points, on the extended reals.

  Points 8·q, 8·q + 1, …, 8·q + 7 work on the same eight batch rows and on the eight time tiles in order. The
  first stores "0 + its tile's sums" in the scratch block, each later one adds its own tile's sums to what the point
  before left. So after the last point of the run the scratch holds, at (p, d),

      0 + ∑ over s < 8 of ∑ over k < 512 of  input (8·q + p) (512·s + k) d,

  which, the eight tiles cutting the time axis into consecutive pieces, is the sum over all 4096 times:
  the pooled value at (8·q + p, d). Only commutativity and associativity of addition are used, so nothing is asked of
  the entries.
-/
import proofs.«179624_j45810121179453_1_alg».proof.Proof.Gen.KernelIdeal.Value
import proofs.«179624_j45810121179453_1_alg».proof.Proof.TilePieces
import proofs.«179624_j45810121179453_1_alg».proof.Proof.TileStep
import proofs.«179624_j45810121179453_1_alg».proof.Proof.TileOfInput
import Idealize.ShloMosaic.Lib.Pipeline.Value

noncomputable section

open scoped BigOperators

namespace Cert.KernelIdeal.Fold

open Cert.KernelIdeal Cert.KernelIdeal.Gen Cert.KernelIdeal.Value Cert.KernelIdeal.Tiles
open Idealize.ShloMosaic Idealize.ShloMosaic.TcCoe Idealize.SL.Sem Idealize.ShloMosaic.ValueIdx Cert.TimeSum

variable (m : (ℓ : Loc nD τ sig) → Buf (Elt Ideal) ℓ)

/-- At the first point of a run the scratch is left, at (p, d), at zero plus the tile's sum over its times,
    whatever it held before. -/
theorem left_first (c : Dev nD) (n : ℕ) (hb : n < cfg0.N) (h0 : n % 8 = 0) (acc : FVec Ideal S8x1024 .f32)
    (p : Fin 8) (d : Fin 1024) :
    scAt0_0 m c n hb acc (ix2 p d) = 0 + ∑ k : Fin 512, (tile m c ⟨n, hb⟩ : FVec Ideal S8x512x1024 .f32) (ix3 p k d) := by
  have h1 : ¬n % 8 = 7 := by omega
  unfold scAt0_0
  rw [dif_pos h0, dif_neg h1]
  refine (congrFun (Pieces.scratch_first (F := Ideal) c (grid0.coords ⟨n, hb⟩) (ms0_0 ⟨n, hb⟩) (hs0_0 ⟨n, hb⟩) (ms0_1 ⟨n, hb⟩) (hs0_1 ⟨n, hb⟩) scM0_0 (Memref.isWhole_whole _)
    ((hcond0_0 ⟨n, hb⟩).mpr h0) (fun h => h1 ((hcond0_1 ⟨n, hb⟩).mp h)) (tile m c ⟨n, hb⟩)) (ix2 p d)).trans ?_
  refine (Step.step_apply (k0_pay1 (F := Ideal)) (tile m c ⟨n, hb⟩) p d).trans ?_
  rw [Step.reset_apply]

/-- At every other point it is left at what the point before left plus the tile's sum over its times. -/
theorem left_later (c : Dev nD) (n : ℕ) (hb : n < cfg0.N) (h0 : ¬n % 8 = 0) (acc : FVec Ideal S8x1024 .f32)
    (p : Fin 8) (d : Fin 1024) :
    scAt0_0 m c n hb acc (ix2 p d)
      = acc (ix2 p d) + ∑ k : Fin 512, (tile m c ⟨n, hb⟩ : FVec Ideal S8x512x1024 .f32) (ix3 p k d) := by
  unfold scAt0_0
  rw [dif_neg h0]
  by_cases h1 : n % 8 = 7
  · rw [dif_pos h1]
    refine (congrFun (Pieces.scratch_last (F := Ideal) c (grid0.coords ⟨n, hb⟩) (ms0_0 ⟨n, hb⟩) (hs0_0 ⟨n, hb⟩) (ms0_1 ⟨n, hb⟩) (hs0_1 ⟨n, hb⟩) scM0_0 (Memref.isWhole_whole _)
      (fun h => h0 ((hcond0_0 ⟨n, hb⟩).mp h)) ((hcond0_1 ⟨n, hb⟩).mpr h1) (tile m c ⟨n, hb⟩) acc) (ix2 p d)).trans ?_
    exact Step.step_apply acc (tile m c ⟨n, hb⟩) p d
  · rw [dif_neg h1]
    refine (congrFun (Pieces.scratch_middle (F := Ideal) c (grid0.coords ⟨n, hb⟩) (ms0_0 ⟨n, hb⟩) (hs0_0 ⟨n, hb⟩) (ms0_1 ⟨n, hb⟩) (hs0_1 ⟨n, hb⟩) scM0_0 (Memref.isWhole_whole _)
      (fun h => h0 ((hcond0_0 ⟨n, hb⟩).mp h)) (fun h => h1 ((hcond0_1 ⟨n, hb⟩).mp h)) (tile m c ⟨n, hb⟩) acc) (ix2 p d)).trans ?_
    exact Step.step_apply acc (tile m c ⟨n, hb⟩) p d

/-- What point `n` of the run over batch block `q` adds at an index of the scratch: the input's sum over the times of
    tile `n mod 8`, in the block's rows. -/
def addend (c : Dev nD) (q : Fin 2) (n : ℕ) (i : S8x1024.Idx) : EReal :=
  ∑ k : Fin 512, (input m c : FVec Ideal S16x4096x1024 .f32)
    (ix3 (rowOf q (i 0)) (timeOf ⟨n % 8, Nat.mod_lt n (by decide)⟩ k) (i 1))

/-- The tile's sum at a point of the run over block `q` is that addend. -/
theorem tile_sum (c : Dev nD) (q : Fin 2) (n : ℕ) (hb : n < cfg0.N) (hq : n / 8 = q.val) (p : Fin 8) (d : Fin 1024) :
    ∑ k : Fin 512, (tile m c ⟨n, hb⟩ : FVec Ideal S8x512x1024 .f32) (ix3 p k d) = addend m c q n (ix2 p d) := by
  unfold addend
  refine Finset.sum_congr rfl fun k _ => ?_
  exact tile_apply m c ⟨n, hb⟩ q ⟨n % 8, Nat.mod_lt n (by decide)⟩ (by show n = 8 * q.val + n % 8; omega) p k d

/-- After the last point of the run over block `q` the scratch holds zero plus the eight addends. -/
theorem scratch_after_run (c : Dev nD) (t : Fin cfg0.N) (q : Fin 2) (hq : t.val = 8 * q.val + 7) (i : S8x1024.Idx) :
    (outsAt0 m c t.val t.isLt).2 i = 0 + ∑ s ∈ Finset.range 8, addend m c q (8 * q.val + s) i := by
  have hN : cfg0.N = 16 := N_0
  have hb : 8 * q.val + 7 < cfg0.N := by have := q.isLt; omega
  have same : ∀ (b j : ℕ) (hj : b + j < cfg0.N), b = 8 * q.val → j = 7 →
      Pipeline.accAt (fun n h => scAt0_0 m c n h (VS0_0.read (Elt Ideal) VS0_0.junk)) (scAt0_0 m c) b j hj
        = Pipeline.accAt (fun n h => scAt0_0 m c n h (VS0_0.read (Elt Ideal) VS0_0.junk)) (scAt0_0 m c) (8 * q.val) 7 hb := by
    intro b j hj eb ej; subst eb; subst ej; rfl
  rw [soutsAt0_0_eq m c t, same _ _ _ (by omega) (by omega)]
  refine Pipeline.accAt_add_apply (ι := S8x1024.Idx) (β := EReal)
    (fun n h => scAt0_0 m c n h (VS0_0.read (Elt Ideal) VS0_0.junk)) (scAt0_0 m c) (fun _ => 0) (addend m c q)
    (8 * q.val) 7 ?_ ?_ 7 le_rfl hb i
  · intro h j
    obtain ⟨p, d, rfl⟩ : ∃ (p : Fin 8) (d : Fin 1024), j = ix2 p d := ⟨j 0, j 1, eq_ix2 j⟩
    rw [left_first m c _ h (by omega) _ p d, tile_sum m c q _ h (by omega) p d]
  · intro n h acc j hlo hhi
    obtain ⟨p, d, rfl⟩ : ∃ (p : Fin 8) (d : Fin 1024), j = ix2 p d := ⟨j 0, j 1, eq_ix2 j⟩
    rw [left_later m c n h (by omega) acc p d, tile_sum m c q n h (by omega) p d]

/-- The eight addends of a run, at (p, d), sum to the pooled value at row `8·q + p`. -/
theorem addends_total (c : Dev nD) (q : Fin 2) (p : Fin 8) (d : Fin 1024) :
    0 + ∑ s ∈ Finset.range 8, addend m c q (8 * q.val + s) (ix2 p d) = total (input m c) (ix2 (rowOf q p) d) := by
  rw [zero_add, Finset.sum_range]
  refine Eq.trans ?_ (sum_tiles fun k => (input m c : FVec Ideal S16x4096x1024 .f32) (ix3 (rowOf q p) k d))
  refine Finset.sum_congr rfl fun s _ => ?_
  unfold addend
  refine Finset.sum_congr rfl fun k _ => ?_
  have es : (⟨(8 * q.val + s.val) % 8, Nat.mod_lt _ (by decide)⟩ : Fin 8) = s := Fin.ext (by show (8 * q.val + s.val) % 8 = s.val; omega)
  rw [es]

/-- So after the last point of the run over block `q` the scratch holds the pooled values of the block's rows. -/
theorem scratch_total (c : Dev nD) (t : Fin cfg0.N) (q : Fin 2) (hq : t.val = 8 * q.val + 7) (p : Fin 8) (d : Fin 1024) :
    (outsAt0 m c t.val t.isLt).2 (ix2 p d) = total (input m c) (ix2 (rowOf q p) d) :=
  (scratch_after_run m c t q hq (ix2 p d)).trans (addends_total m c q p d)

end Cert.KernelIdeal.Fold

end
-- ==== Proof.PooledArray.lean ====
/-
  The kernel's result array is the pooled array.

  Only the last point of each run of eight writes its output block back, and there the block is a copy of the
  scratch, which by then holds the pooled values of the run's eight batch rows. The two runs' blocks are rows 0 … 7
  and rows 8 … 15, so between them they cover the 16 × 1024 result, and every entry of it is the sum of the input
  over the 4096 times.
-/
import proofs.«179624_j45810121179453_1_alg».proof.Proof.Gen.KernelIdeal.Value
import proofs.«179624_j45810121179453_1_alg».proof.Proof.RunFold

noncomputable section

namespace Cert.KernelIdeal.Pooled

open Cert.KernelIdeal Cert.KernelIdeal.Gen Cert.KernelIdeal.Value Cert.KernelIdeal.Tiles
open Idealize.ShloMosaic Idealize.ShloMosaic.TcCoe Idealize.SL.Sem Idealize.ShloMosaic.ValueIdx Cert.TimeSum
open Idealize.ShloMosaic.Pipeline (Dat)

variable (m : (ℓ : Loc nD τ sig) → Buf (Elt Ideal) ℓ) (ρ : Dev nD → PrngReg)

/-- At the last point of a run the output block is a copy of the scratch. -/
theorem output_is_scratch (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.output_last (F := Ideal) c (grid0.coords t) (ms0_0 t) (hs0_0 t) (ms0_1 t) (hs0_1 t) scM0_0 (Memref.isWhole_whole _)
      (fun h => h0 ((hcond0_0 t).mp h)) ((hcond0_1 t).mpr h1) (tile m c t)
      (outsAt0 m c (t.val - 1) (Nat.lt_of_le_of_lt (Nat.sub_le _ _) t.isLt)).2).trans
    (Pieces.scratch_last (F := Ideal) c (grid0.coords t) (ms0_0 t) (hs0_0 t) (ms0_1 t) (hs0_1 t) scM0_0 (Memref.isWhole_whole _)
      (fun h => h0 ((hcond0_0 t).mp h)) ((hcond0_1 t).mpr h1) (tile m c t)
      (outsAt0 m c (t.val - 1) (Nat.lt_of_le_of_lt (Nat.sub_le _ _) t.isLt)).2).symm

/-- What a flushing point writes back is its block of the pooled array. -/
theorem written_back (c : Dev nD) (t : Fin cfg0.N) (hf : (cfg0.win 1).flush t = true) :
    (dats m 0 c).flushed 1 t = ((cfg0.win 1).blk t).view.read (Elt Ideal) (total (input m c)) := by
  have h1 : t.val % 8 = 7 := (flush0_1 t).mp hf
  have h0 : ¬t.val % 8 = 0 := by omega
  have hN := point_lt t
  rw [flushed1 m c t, output_is_scratch m c t h0 h1]
  obtain ⟨-, -, -, e3, e4⟩ := block_index t
  funext j
  obtain ⟨p, d, rfl⟩ : ∃ (p : Fin 8) (d : Fin 1024), j = ix2 p d := ⟨j 0, j 1, eq_ix2 j⟩
  show (outsAt0 m c t.val t.isLt).2 (ix2 p d) = total (input m c) (((cfg0.win 1).blk t).view.emb (ix2 p d))
  rw [Fold.scratch_total m c t ⟨t.val / 8, by omega⟩ (by show t.val = 8 * (t.val / 8) + 7; omega) p d]
  refine congrArg (total (input m c)) (funext fun a => Fin.ext ?_)
  match a with
  | ⟨0, _⟩ => show 8 * (t.val / 8) + p.val = win0_1.index t (0 : Fin 2) * 8 + 1 * p.val; omega
  | ⟨1, _⟩ => show d.val = win0_1.index t (1 : Fin 2) * 1024 + 1 * d.val; omega

/-- An index of the result lies in point `t`'s output block iff each coordinate lies in the block's range. -/
theorem mem_block (t : Fin cfg0.N) (i : S16x1024.Idx) :
    i ∈ ((cfg0.win 1).blk t).view.set ↔ ∀ a : Fin 2, win0_1.index t a * S8x1024.size a ≤ (i a).val
      ∧ (i a).val < win0_1.index t a * S8x1024.size a + S8x1024.size a := by
  show i ∈ ((View.whole main_v0).slice (win0_1.rect t)).set ↔ _
  rw [View.set_slice_whole, Rect.mem_set_unit]
  exact Iff.rfl

/-- Every index of the result is in the block of the last point of its row's run. -/
theorem covered (i : S16x1024.Idx) :
    ∃ t : Fin cfg0.N, (cfg0.win 1).flush t = true ∧ i ∈ ((cfg0.win 1).blk t).view.set := by
  have hi0 : (i 0).val < 16 := (i 0).isLt
  have hi1 : (i 1).val < 1024 := (i 1).isLt
  have hN : cfg0.N = 16 := N_0
  obtain ⟨t, ht⟩ : ∃ t : Fin cfg0.N, t.val = 8 * ((i 0).val / 8) + 7 := ⟨⟨8 * ((i 0).val / 8) + 7, by omega⟩, rfl⟩
  obtain ⟨-, -, -, e3, e4⟩ := block_index t
  refine ⟨t, (flush0_1 t).mpr (by omega), ?_⟩
  rw [mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 1024 ≤ (i 1).val ∧ (i 1).val < win0_1.index t (1 : Fin 2) * 1024 + 1024; omega

/-- The result array after the run is the pooled array of the input as launched. -/
theorem result (c : Dev nD) :
    (dats m 0 c).arrAt 1 cfg0.N = total (m ((c : Thread nD τ).loc main_arg0)) :=
  (dats m 0 c).arrAt_eq_of_cover 1 (total (input m c)) (fun t hf => written_back m c t hf) covered

/-- Every fair execution of the kernel program ends with the result at the pooled array and the input unchanged. -/
theorem run : θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_arg0) = m ((c : Thread nD τ).loc main_arg0) :=
  (θ_run defs _ _).mono (fun r h c => ⟨(h c).1.trans (result m c), (h c).2⟩) (run_blocks m ρ)

end Cert.KernelIdeal.Pooled

end
-- ==== Proof.RefPooled.lean ====
/-
  The reference computes the time-axis sum.

  Read one operation at a time, the reference's result at (b, d) is
  `4096 · ((0 + ∑ₖ x b k d) / 4096)`: the sum over the 4096 times from the initial value zero, divided by the
  step count and multiplied by it again. On the extended reals the zero is absorbed and the scaling cancels
  (`Cert.TimeSum.scale_cancel`), at infinite sums too, so the result is the pooled array `Cert.TimeSum.total x`.
-/
import proofs.«179624_j45810121179453_1_alg».proof.Proof.Gen.ReferenceIdeal.Read
import proofs.«179624_j45810121179453_1_alg».proof.Proof.TimeSum

noncomputable section

namespace Cert.ReferenceIdeal.Pooled

open Cert.ReferenceIdeal Cert.ReferenceIdeal.Read Idealize.ShloMosaic Idealize.ShloMosaic.ValueIdx

/-- The index the reference's sum reads at time `k` is (b, k, d). -/
theorem idx_time (i : S16x1024.Idx) (k : Fin 4096) : idx_main_v0 i k = ix3 (i 0) k (i 1) := by
  funext a; match a with | ⟨0, _⟩ => rfl | ⟨1, _⟩ => rfl | ⟨2, _⟩ => rfl

/-- The reference's last stage is the pooled array. -/
theorem stage_eq_total (x : (⟨S16x4096x1024, .f32⟩ : BufTy).Contents (Elt Ideal)) :
    val_main_v4 (F := Ideal) x = Cert.TimeSum.total x := by
  funext i
  rw [val_main_v4_apply, val_main_v3_apply, val_main_cst_1_apply, val_main_v2_apply, val_main_v0_apply,
    val_main_cst_apply, val_main_v1_apply, val_main_cst_0_apply]
  simp only [idx_time]
  show Ideal.ofBits .f32 0x45800000#32
      * Ideal.div (Ideal.ofBits .f32 0x00000000#32 + ∑ k : Fin 4096, x (ix3 (i 0) k (i 1))) (Ideal.ofBits .f32 0x45800000#32)
    = Cert.TimeSum.total x i
  rw [Cert.TimeSum.ofBits_4096, Ideal.ofBits_zero_f32, zero_add, Cert.TimeSum.scale_cancel]
  rfl

end Cert.ReferenceIdeal.Pooled

end
-- ==== Proof.lean ====
/-
  Pooling by summation over the time axis: a tiled kernel against `T · mean`.

  The kernel walks a 2 × 8 grid. For each block of eight batch rows it visits the eight tiles of 512 times in order,
  keeps a running sum in a scratch block (zeroed at the first tile), adds each tile's sums over its times, and at the
  last tile copies the scratch to the result. The reference takes the mean over the 4096 times and multiplies by 4096.

  On the extended reals both are the plain sum over the 4096 times at every (batch, feature):
  the kernel's because a finite sum may be cut into consecutive pieces and regrouped (addition is commutative and
  associative there), the reference's because dividing by the real 4096 is multiplying by its reciprocal, at the
  infinities too, and the two real factors multiply to one. Neither step needs the entries to be finite, so the
  precondition is not opened.

  The three programs' runs end with their arguments unchanged (the frames); the kernel's idealization rewrote no
  operation, so there is nothing to preserve; and the two idealized programs end with equal results (the last claim).
-/
import proofs.«179624_j45810121179453_1_alg».proof.Defs
import proofs.«179624_j45810121179453_1_alg».proof.Proof.Gen.Kernel
import proofs.«179624_j45810121179453_1_alg».proof.Proof.Gen.Kernel.Skeleton
import proofs.«179624_j45810121179453_1_alg».proof.Proof.Gen.Kernel.Launch
import proofs.«179624_j45810121179453_1_alg».proof.Proof.Gen.Kernel.Points
import proofs.«179624_j45810121179453_1_alg».proof.Proof.Gen.Kernel.Frame
import proofs.«179624_j45810121179453_1_alg».proof.Proof.Gen.KernelIdeal
import proofs.«179624_j45810121179453_1_alg».proof.Proof.Gen.KernelIdeal.Skeleton
import proofs.«179624_j45810121179453_1_alg».proof.Proof.Gen.KernelIdeal.Launch
import proofs.«179624_j45810121179453_1_alg».proof.Proof.Gen.KernelIdeal.Points
import proofs.«179624_j45810121179453_1_alg».proof.Proof.Gen.KernelIdeal.Frame
import proofs.«179624_j45810121179453_1_alg».proof.Proof.Gen.ReferenceIdeal
import proofs.«179624_j45810121179453_1_alg».proof.Proof.Gen.Pre_finite_inputs
import proofs.«179624_j45810121179453_1_alg».proof.Proof.Gen.KernelIdeal.Value
import proofs.«179624_j45810121179453_1_alg».proof.Proof.Gen.ReferenceIdeal.Run
import proofs.«179624_j45810121179453_1_alg».proof.Proof.Gen.ReferenceIdeal.Read
import proofs.«179624_j45810121179453_1_alg».proof.Proof.PooledArray
import proofs.«179624_j45810121179453_1_alg».proof.Proof.RefPooled
import Idealize.ShloMosaic.Adequacy
import Idealize.ShloMosaic.Init

noncomputable section

namespace Cert.Proof

open Idealize.ShloMosaic Idealize.ShloMosaic.TcCoe Idealize.SL.Sem

/-- The word-level kernel runs and leaves its input as it found it. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, the idealized kernel and the idealized reference both end at the pooled array of the
    input: the sum over the 4096 times at every (batch, feature). -/
theorem pooled_equal : Cert.algebraic_KernelIdeal_ReferenceIdeal := by
  intro m ρ m' ρ' _ hagree
  refine ⟨fun c => Cert.TimeSum.total (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Pooled.stage_eq_total, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, pooled_equal⟩

end Cert.Proof

end
